-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S82x1024 : Shape := ⟨2, ![82, 1024]⟩
abbrev S82 : Shape := ⟨1, ![82]⟩
abbrev S324x1024 : Shape := ⟨2, ![324, 1024]⟩
abbrev S324 : Shape := ⟨1, ![324]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S82x1024 : S_.BroadcastsInDim S82x1024 (![] : Fin 0 → Fin S82x1024.rank)
  reducesTo_S82x1024_S_d0_1 : S82x1024.ReducesTo [0, 1] S_
  bcast_S_S82 : S_.BroadcastsInDim S82 (![] : Fin 0 → Fin S82.rank)
  reducesTo_S82_S_d0 : S82.ReducesTo [0] S_
  bcast_S_S324x1024 : S_.BroadcastsInDim S324x1024 (![] : Fin 0 → Fin S324x1024.rank)
  reducesTo_S324x1024_S_d0_1 : S324x1024.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_arg4 : FVec F S324 .f32) (main_v13 : IVec S_ 1) (main_v16 : IVec S324x1024 1) : IVec S_ 1 :=
  let main_c_5 : IVec S_ 1 := constantI S_ 1 1#1
  let main_v17 : IVec S_ 1 := (fun x v => Host.reduce IntOp.andi x v reducesTo_S324x1024_S_d0_1 h_S_) main_v16 main_c_5
  let main_v18 : IVec S_ 1 := andi main_v13 main_v17
  let main_v19 : FVec F S324 .f32 := Host.absf main_arg4
  let main_cst_6 : FVec F S_ .f32 := constant S_ .f32 0x7F800000#32
  let main_v20 : FVec F S324 .f32 := broadcastInDim S324 ![] bcast_S_S324 main_cst_6
  let main_v21 : IVec S324 1 := cmpf .olt main_v19 main_v20
  let main_c_7 : IVec S_ 1 := constantI S_ 1 1#1
  let main_v22 : IVec S_ 1 := (fun x v => Host.reduce IntOp.andi x v reducesTo_S324_S_d0 h_S_) main_v21 main_c_7
  let main_v23 : IVec S_ 1 := andi main_v18 main_v22
  main_v23

def fn {F : FTy → Type} [FloatOps F] (main_arg0 : FVec F S20000x1024 .f32) (main_arg1 : FVec F S82x1024 .f32) (main_arg2 : FVec F S82 .f32) (main_arg3 : FVec F S324x1024 .f32) (main_arg4 : FVec F S324 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S82x1024 .f32 := Host.absf main_arg1
  let main_cst_0 : FVec F S_ .f32 := constant S_ .f32 0x7F800000#32
  let main_v5 : FVec F S82x1024 .f32 := broadcastInDim S82x1024 ![] bcast_S_S82x1024 main_cst_0
  let main_v6 : IVec S82x1024 1 := cmpf .olt main_v4 main_v5
  let main_c_1 : IVec S_ 1 := constantI S_ 1 1#1
  let main_v7 : IVec S_ 1 := (fun x v => Host.reduce IntOp.andi x v reducesTo_S82x1024_S_d0_1 h_S_) main_v6 main_c_1
  let main_v8 : IVec S_ 1 := andi main_v3 main_v7
  let main_v9 : FVec F S82 .f32 := Host.absf main_arg2
  let main_cst_2 : FVec F S_ .f32 := constant S_ .f32 0x7F800000#32
  let main_v10 : FVec F S82 .f32 := broadcastInDim S82 ![] bcast_S_S82 main_cst_2
  let main_v11 : IVec S82 1 := cmpf .olt main_v9 main_v10
  let main_c_3 : IVec S_ 1 := constantI S_ 1 1#1
  let main_v12 : IVec S_ 1 := (fun x v => Host.reduce IntOp.andi x v reducesTo_S82_S_d0 h_S_) main_v11 main_c_3
  let main_v13 : IVec S_ 1 := andi main_v8 main_v12
  let main_v14 : FVec F S324x1024 .f32 := Host.absf main_arg3
  let main_cst_4 : FVec F S_ .f32 := constant S_ .f32 0x7F800000#32
  let main_v15 : FVec F S324x1024 .f32 := broadcastInDim S324x1024 ![] bcast_S_S324x1024 main_cst_4
  let main_v16 : IVec S324x1024 1 := cmpf .olt main_v14 main_v15
  fn_part1 (F := F) main_arg4 main_v13 main_v16
-- ==== Kernel.lean ====
abbrev S20000x1024 : Shape := ⟨2, ![20000, 1024]⟩
abbrev S82x1024 : Shape := ⟨2, ![82, 1024]⟩
abbrev S82 : Shape := ⟨1, ![82]⟩
abbrev S324x1024 : Shape := ⟨2, ![324, 1024]⟩
abbrev S324 : Shape := ⟨1, ![324]⟩
abbrev S1x82 : Shape := ⟨2, ![1, 82]⟩
abbrev S1x324 : Shape := ⟨2, ![1, 324]⟩
abbrev S20000x82 : Shape := ⟨2, ![20000, 82]⟩
abbrev S20000x324 : Shape := ⟨2, ![20000, 324]⟩
abbrev S2000x256 : Shape := ⟨2, ![2000, 256]⟩
abbrev S2000x82 : Shape := ⟨2, ![2000, 82]⟩
abbrev S2000x324 : Shape := ⟨2, ![2000, 324]⟩
abbrev S82x256 : Shape := ⟨2, ![82, 256]⟩
abbrev S324x256 : Shape := ⟨2, ![324, 256]⟩

abbrev nBuf : Space → Nat
  | .hbm => 9
  | .vmem => 16
  | .smem => 0
  | _ => 0

abbrev bufTy : (tb : Table) → Fin (tcTables nBuf tb) → BufTy
  | .hbm, ⟨0, _⟩ => ⟨S20000x1024, .f32⟩
  | .hbm, ⟨1, _⟩ => ⟨S82x1024, .f32⟩
  | .hbm, ⟨2, _⟩ => ⟨S82, .f32⟩
  | .hbm, ⟨3, _⟩ => ⟨S324x1024, .f32⟩
  | .hbm, ⟨4, _⟩ => ⟨S324, .f32⟩
  | .hbm, ⟨5, _⟩ => ⟨S1x82, .f32⟩
  | .hbm, ⟨6, _⟩ => ⟨S1x324, .f32⟩
  | .hbm, ⟨7, _⟩ => ⟨S20000x82, .f32⟩
  | .hbm, ⟨8, _⟩ => ⟨S20000x324, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S82x1024, .f32⟩
  | .local _ .vmem, ⟨9, _⟩ => ⟨S324x1024, .f32⟩
  | .local _ .vmem, ⟨10, _⟩ => ⟨S1x82, .f32⟩
  | .local _ .vmem, ⟨11, _⟩ => ⟨S1x324, .f32⟩
  | .local _ .vmem, ⟨12, _⟩ => ⟨S2000x82, .f32⟩
  | .local _ .vmem, ⟨13, _⟩ => ⟨S2000x82, .f32⟩
  | .local _ .vmem, ⟨14, _⟩ => ⟨S2000x324, .f32⟩
  | .local _ .vmem, ⟨15, _⟩ => ⟨S2000x324, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S82x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S324x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x82 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x324 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x82 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x324 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S82_S1x82 : S82.ShapeCasts S1x82
  shapeCasts_S324_S1x324 : S324.ShapeCasts S1x324
  inb_S82x1024_S82x1024_0_0 : ∀ a, (![0, 0] : Fin 2 → Nat) a + S82x1024.size a ≤ S82x1024.size a
  h_S82x1024 : 0 < S82x1024.numel
  bitsLt_bf16_f32 : FTy.bits .bf16 < FTy.bits .f32
  inb_S324x1024_S324x1024_0_0 : ∀ a, (![0, 0] : Fin 2 → Nat) a + S324x1024.size a ≤ S324x1024.size a
  h_S324x1024 : 0 < S324x1024.numel
  inb_S2000x256_S2000x256_0_0 : ∀ a, (![0, 0] : Fin 2 → Nat) a + S2000x256.size a ≤ S2000x256.size a
  h_S2000x256 : 0 < S2000x256.numel
  slices_S82x1024_o0_0_S82x256 : S82x1024.Slices ![0, 0] S82x256
  slices_S324x1024_o0_0_S324x256 : S324x1024.Slices ![0, 0] S324x256
  slices_S82x1024_o0_256_S82x256 : S82x1024.Slices ![0, 256] S82x256
  slices_S324x1024_o0_256_S324x256 : S324x1024.Slices ![0, 256] S324x256
  slices_S82x1024_o0_512_S82x256 : S82x1024.Slices ![0, 512] S82x256
  slices_S324x1024_o0_512_S324x256 : S324x1024.Slices ![0, 512] S324x256
  slices_S82x1024_o0_768_S82x256 : S82x1024.Slices ![0, 768] S82x256
  slices_S324x1024_o0_768_S324x256 : S324x1024.Slices ![0, 768] S324x256
  inb_S1x82_S1x82_0_0 : ∀ a, (![0, 0] : Fin 2 → Nat) a + S1x82.size a ≤ S1x82.size a
  h_S1x82 : 0 < S1x82.numel
  shapeCasts_S1x82_S1x82 : S1x82.ShapeCasts S1x82
  broadcasts_S1x82_S2000x82 : S1x82.Broadcasts S2000x82
  inb_S2000x82_S2000x82_0_0 : ∀ a, (![0, 0] : Fin 2 → Nat) a + S2000x82.size a ≤ S2000x82.size a
  h_S2000x82 : 0 < S2000x82.numel
  inb_S1x324_S1x324_0_0 : ∀ a, (![0, 0] : Fin 2 → Nat) a + S1x324.size a ≤ S1x324.size a
  h_S1x324 : 0 < S1x324.numel
  shapeCasts_S1x324_S1x324 : S1x324.ShapeCasts S1x324
  broadcasts_S1x324_S2000x324 : S1x324.Broadcasts S2000x324
  inb_S2000x324_S2000x324_0_0 : ∀ a, (![0, 0] : Fin 2 → Nat) a + S2000x324.size a ≤ S2000x324.size a
  h_S2000x324 : 0 < S2000x324.numel
  dot_S2000x256_S82x256_S2000x82_1_1_0_0_n_n_wf : DotDims.WF S2000x256 S82x256 S2000x82 [1] [1] [0] [0] [] []
  dot_S2000x256_S324x256_S2000x324_1_1_0_0_n_n_wf : DotDims.WF S2000x256 S324x256 S2000x324 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x1024.size a
  hwx0_0 : ∀ i : grid0.Coords, EltTy.bits .f32 = 32 ∨ (Rect.block (s := S20000x1024) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x1024.size a
  hwx0_1 : ∀ i : grid0.Coords, EltTy.bits .f32 = 32 ∨ (Rect.block (s := S20000x1024) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x1024.size a
  hwx0_2 : ∀ i : grid0.Coords, EltTy.bits .f32 = 32 ∨ (Rect.block (s := S20000x1024) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x1024.size a
  hwx0_3 : ∀ i : grid0.Coords, EltTy.bits .f32 = 32 ∨ (Rect.block (s := S20000x1024) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S82x1024.size a ≤ S82x1024.size a
  hwx0_4 : ∀ i : grid0.Coords, EltTy.bits .f32 = 32 ∨ (Rect.block (s := S82x1024) S82x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S324x1024.size a ≤ S324x1024.size a
  hwx0_5 : ∀ i : grid0.Coords, EltTy.bits .f32 = 32 ∨ (Rect.block (s := S324x1024) S324x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x82.size a ≤ S1x82.size a
  hwx0_6 : ∀ i : grid0.Coords, EltTy.bits .f32 = 32 ∨ (Rect.block (s := S1x82) S1x82.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x324.size a ≤ S1x324.size a
  hwx0_7 : ∀ i : grid0.Coords, EltTy.bits .f32 = 32 ∨ (Rect.block (s := S1x324) S1x324.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x82.size a ≤ S20000x82.size a
  hwx0_8 : ∀ i : grid0.Coords, EltTy.bits .f32 = 32 ∨ (Rect.block (s := S20000x82) S2000x82.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x324.size a ≤ S20000x324.size a
  hwx0_9 : ∀ i : grid0.Coords, EltTy.bits .f32 = 32 ∨ (Rect.block (s := S20000x324) S2000x324.size (cc0_transform_9 i) (hinb0_9 i)).WholeWords (EltTy.packing .f32)

variable [Facts₀]

def dot_S2000x256_S82x256_S2000x82_1_1_0_0_n_n : DotDims S2000x256 S82x256 S2000x82 where
  lhsContracting := [1]
  rhsContracting := [1]
  lhsNonContracting := [0]
  rhsNonContracting := [0]
  lhsBatch := []
  rhsBatch := []
  wf := dot_S2000x256_S82x256_S2000x82_1_1_0_0_n_n_wf
def dot_S2000x256_S324x256_S2000x324_1_1_0_0_n_n : DotDims S2000x256 S324x256 S2000x324 where
  lhsContracting := [1]
  rhsContracting := [1]
  lhsNonContracting := [0]
  rhsNonContracting := [0]
  lhsBatch := []
  rhsBatch := []
  wf := dot_S2000x256_S324x256_S2000x324_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S82x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S324x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x82.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x324.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S2000x82.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S2000x324.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S82x1024 : Shape := ⟨2, ![82, 1024]⟩
abbrev S82 : Shape := ⟨1, ![82]⟩
abbrev S324x1024 : Shape := ⟨2, ![324, 1024]⟩
abbrev S324 : Shape := ⟨1, ![324]⟩
abbrev S1024x82 : Shape := ⟨2, ![1024, 82]⟩
abbrev S20000x82 : Shape := ⟨2, ![20000, 82]⟩
abbrev S1x82 : Shape := ⟨2, ![1, 82]⟩
abbrev S1024x324 : Shape := ⟨2, ![1024, 324]⟩
abbrev S20000x324 : Shape := ⟨2, ![20000, 324]⟩
abbrev S1x324 : Shape := ⟨2, ![1, 324]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S82x1024, .f32⟩
  | .hbm, ⟨2, _⟩ => ⟨S82, .f32⟩
  | .hbm, ⟨3, _⟩ => ⟨S324x1024, .f32⟩
  | .hbm, ⟨4, _⟩ => ⟨S324, .f32⟩
  | .hbm, ⟨5, _⟩ => ⟨S1024x82, .f32⟩
  | .hbm, ⟨6, _⟩ => ⟨S20000x82, .f32⟩
  | .hbm, ⟨7, _⟩ => ⟨S1x82, .f32⟩
  | .hbm, ⟨8, _⟩ => ⟨S20000x82, .f32⟩
  | .hbm, ⟨9, _⟩ => ⟨S20000x82, .f32⟩
  | .hbm, ⟨10, _⟩ => ⟨S1024x324, .f32⟩
  | .hbm, ⟨11, _⟩ => ⟨S20000x324, .f32⟩
  | .hbm, ⟨12, _⟩ => ⟨S1x324, .f32⟩
  | .hbm, ⟨13, _⟩ => ⟨S20000x324, .f32⟩
  | .hbm, ⟨14, _⟩ => ⟨S20000x324, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S82x1024_S1024x82_1_0 : S82x1024.Transposes [1, 0] S1024x82
  bcast_S82_S1x82_1 : S82.BroadcastsInDim S1x82 (![1] : Fin 1 → Fin S1x82.rank)
  bcast_S1x82_S20000x82_0_1 : S1x82.BroadcastsInDim S20000x82 (![0, 1] : Fin 2 → Fin S20000x82.rank)
  transposes_S324x1024_S1024x324_1_0 : S324x1024.Transposes [1, 0] S1024x324
  bcast_S324_S1x324_1 : S324.BroadcastsInDim S1x324 (![1] : Fin 1 → Fin S1x324.rank)
  bcast_S1x324_S20000x324_0_1 : S1x324.BroadcastsInDim S20000x324 (![0, 1] : Fin 2 → Fin S20000x324.rank)
  dot_S20000x1024_S1024x82_S20000x82_1_0_0_1_n_n_wf : DotDims.WF S20000x1024 S1024x82 S20000x82 [1] [0] [0] [1] [] []
  dot_S20000x1024_S1024x324_S20000x324_1_0_0_1_n_n_wf : DotDims.WF S20000x1024 S1024x324 S20000x324 [1] [0] [0] [1] [] []

variable [Facts₀]

def dot_S20000x1024_S1024x82_S20000x82_1_0_0_1_n_n : DotDims S20000x1024 S1024x82 S20000x82 where
  lhsContracting := [1]
  rhsContracting := [0]
  lhsNonContracting := [0]
  rhsNonContracting := [1]
  lhsBatch := []
  rhsBatch := []
  wf := dot_S20000x1024_S1024x82_S20000x82_1_0_0_1_n_n_wf
def dot_S20000x1024_S1024x324_S20000x324_1_0_0_1_n_n : DotDims S20000x1024 S1024x324 S20000x324 where
  lhsContracting := [1]
  rhsContracting := [0]
  lhsNonContracting := [0]
  rhsNonContracting := [1]
  lhsBatch := []
  rhsBatch := []
  wf := dot_S20000x1024_S1024x324_S20000x324_1_0_0_1_n_n_wf

class Facts : Prop extends Facts₀ where

variable [Facts]
-- ==== Proof.WordHeadsEntry.lean ====
/-
  The kernel's program up to its one pallas_call: the two bias vectors are reshaped to rows
  (82 ↦ 1×82, 324 ↦ 1×324) and nothing else happens before the region. Stated here: the contents every
  TensorCore buffer holds when the region is entered, that the five arguments are among the buffers the two
  reshapes do not write, and each window's block of its array at a grid point.
-/
import proofs.«182011_g32169305047750_cont_8to1_b_1656_6_alg».proof.Proof.Gen.Kernel.Launch
import proofs.«182011_g32169305047750_cont_8to1_b_1656_6_alg».proof.Proof.Gen.Kernel.Points
import Idealize.ShloMosaic.Lib.Pipeline.FrameBody

set_option maxRecDepth 16384

noncomputable section

namespace Cert.Kernel.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered: the launch contents run through the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Heads

end
-- ==== Proof.WordHeadsBody.lean ====
/-
  One grid point of the two-head kernel. The body reads four column chunks of the point's 2000 activation rows
  (256 columns each), both weight matrices whole and both bias rows, and stores into the two output blocks
      scores = ((x₀·Wc₀ᵀ + x₁·Wc₁ᵀ) + x₂·Wc₂ᵀ) + x₃·Wc₃ᵀ + bc      (2000 × 82)
      deltas = ((x₀·Wb₀ᵀ + x₁·Wb₁ᵀ) + x₂·Wb₂ᵀ) + x₃·Wb₃ᵀ + bb      (2000 × 324)
  where W·ₖ is columns 256k … 256k+255 of the weight matrix. Each output block is written by ONE store over the
  whole block, so what the block holds afterwards is that store's value, a function of the eight input blocks alone.
-/
import proofs.«182011_g32169305047750_cont_8to1_b_1656_6_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-buffer rectangles the body loads and stores through. -/
abbrev rX : Rect S2000x256 := Rect.unit (s := S2000x256) ![0, 0] S2000x256.size inb_S2000x256_S2000x256_0_0
abbrev rWc : Rect S82x1024 := Rect.unit (s := S82x1024) ![0, 0] S82x1024.size inb_S82x1024_S82x1024_0_0
abbrev rWb : Rect S324x1024 := Rect.unit (s := S324x1024) ![0, 0] S324x1024.size inb_S324x1024_S324x1024_0_0
abbrev rBc : Rect S1x82 := Rect.unit (s := S1x82) ![0, 0] S1x82.size inb_S1x82_S1x82_0_0
abbrev rBb : Rect S1x324 := Rect.unit (s := S1x324) ![0, 0] S1x324.size inb_S1x324_S1x324_0_0
abbrev rS : Rect S2000x82 := Rect.unit (s := S2000x82) ![0, 0] S2000x82.size inb_S2000x82_S2000x82_0_0
abbrev rD : Rect S2000x324 := Rect.unit (s := S2000x324) ![0, 0] S2000x324.size inb_S2000x324_S2000x324_0_0

/-- The scores block after the body: the four partial products against the class weights, summed left to right,
    plus the class bias row on every row. -/
def scoresBlk (x0 x1 x2 x3 : Vec F S2000x256 .f32) (wc : Vec F S82x1024 .f32) (bc : Vec F S1x82 .f32) : Vec F S2000x82 .f32 :=
  View.canon [⟨rS, k0_pay1 (k0_pay7 (View.ld wc rWc) (View.ld x0 rX) (View.ld x1 rX) (View.ld x2 rX) (View.ld x3 rX)) (k0_pay9 (View.ld bc rBc))⟩]

/-- The deltas block after the body: the same with the box weights and the box bias row. -/
def deltasBlk (x0 x1 x2 x3 : Vec F S2000x256 .f32) (wb : Vec F S324x1024 .f32) (bb : Vec F S1x324 .f32) : Vec F S2000x324 .f32 :=
  View.canon [⟨rD, k0_pay2 (k0_pay8 (View.ld wb rWb) (View.ld x0 rX) (View.ld x1 rX) (View.ld x2 rX) (View.ld x3 rX)) (View.ld bb rBb)⟩]

/-- The one store of each output covers its block. -/
theorem coverS (p0 : Vec F S2000x82 .f32) (y : S2000x82.Idx) :
    ∃ pc ∈ ([⟨rS, p0⟩] : List (View.Piece (Elt F) S2000x82 .f32)), y ∈ pc.1.set :=
  View.cover_of_tiled [⟨rS, p0⟩] S2000x82.size (by rfl) y
theorem coverD (p0 : Vec F S2000x324 .f32) (y : S2000x324.Idx) :
    ∃ pc ∈ ([⟨rD, p0⟩] : List (View.Piece (Elt F) S2000x324 .f32)), y ∈ pc.1.set :=
  View.cover_of_tiled [⟨rD, p0⟩] S2000x324.size (by rfl) y

set_option maxHeartbeats 1000000 in
/-- The body on whole staging buffers: the eight input buffers at their contents, the two output buffers at
    anything; it ends with the inputs as they were and the outputs at `scoresBlk` and `deltasBlk` of the inputs. -/
theorem sound_kernel (c : Dev nD) (E : Set ℕ) (i : grid0.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S82x1024 .f32) (harg5 : arg5.IsWhole) (arg6 : Memref sig .tc .vmem S324x1024 .f32) (harg6 : arg6.IsWhole) (arg7 : Memref sig .tc .vmem S1x82 .f32) (harg7 : arg7.IsWhole) (arg8 : Memref sig .tc .vmem S1x324 .f32) (harg8 : arg8.IsWhole) (arg9 : Memref sig .tc .vmem S2000x82 .f32) (harg9 : arg9.IsWhole) (arg10 : Memref sig .tc .vmem S2000x324 .f32) (harg10 : arg10.IsWhole)
    (x0 x1 x2 x3 : Vec F S2000x256 .f32) (wc : Vec F S82x1024 .f32) (wb : Vec F S324x1024 .f32) (bc : Vec F S1x82 .f32) (bb : Vec F S1x324 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare wc ∗ owns (c : Thread nD τ) arg6 fullShare wb ∗ owns (c : Thread nD τ) arg7 fullShare bc ∗ owns (c : Thread nD τ) arg8 fullShare bb
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare wc ∗ owns (c : Thread nD τ) arg6 fullShare wb ∗ owns (c : Thread nD τ) arg7 fullShare bc ∗ owns (c : Thread nD τ) arg8 fullShare bb
            ∗ owns (c : Thread nD τ) arg9 fullShare (scoresBlk x0 x1 x2 x3 wc bc) ∗ owns (c : Thread nD τ) arg10 fullShare (deltasBlk x0 x1 x2 x3 wb bb)) -∗ K ⟨⟩))
      ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10) K := by
  simp only [cc0__heads_kernel_eq_skeleton]; unfold cc0__heads_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverS _)
  iexists _; isplitr
  swap; · iexact H9
  ipureintro
  exact View.read_writes_eq_canon _ _ _ (coverD _)

end Cert.Kernel.Heads

end
-- ==== Proof.WordHeadsData.lean ====
/-
  The proof data of the one pipeline. Four of its ten windows read the SAME array, the activations: window k
  (k < 4) takes the 2000 × 256 block at block index (i, k) at grid point i. So the activations' buffer is dealt
  among those four readers, a quarter of the full share each; every other array has one window and is held whole.
  After the body at point t each input's staging buffer still holds its block, and the two outputs' hold the
  scores and deltas blocks computed from the point's input blocks. The body keeps nothing between points.
-/
import proofs.«182011_g32169305047750_cont_8to1_b_1656_6_alg».proof.Proof.WordHeadsEntry
import proofs.«182011_g32169305047750_cont_8to1_b_1656_6_alg».proof.Proof.WordHeadsBody

set_option maxRecDepth 16384

noncomputable section

namespace Cert.Kernel.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => scoresBlk (iblk m c 0 t) (iblk m c 1 t) (iblk m c 2 t) (iblk m c 3 t) (iblk m c 4 t) (iblk m c 6 t)
    | ⟨9, _⟩ => deltasBlk (iblk m c 0 t) (iblk m c 1 t) (iblk m c 2 t) (iblk m c 3 t) (iblk m c 5 t) (iblk m c 7 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = scoresBlk (iblk m c 0 t) (iblk m c 1 t) (iblk m c 2 t) (iblk m c 3 t) (iblk m c 4 t) (iblk m c 6 t) := by dsimp only [dats]
theorem after_9 (c : Dev nD) (t : Fin cfg0.N) : (dats m 0 c).after 9 t = deltasBlk (iblk m c 0 t) (iblk m c 1 t) (iblk m c 2 t) (iblk m c 3 t) (iblk m c 5 t) (iblk m c 7 t) := by dsimp only [dats]

/-- An input's current staging buffer holds its block at every point, whether the pipeline fetched it there or
    not: where it did not, the block index has not moved since the last fetch and the body left the block alone. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- What the body is handed at point `t`: the invariant, the core's dues, and every window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and the
    dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Heads

end
-- ==== Proof.WordHeadsRun.lean ====
/-
  The launch of the two-head kernel. Four of the pipeline's windows read one array, so the launch theorem used is the
  one for windows that share arrays: it asks how the buffers behind the arrays, each held whole, make the pipeline's
  holdings at entry. The activations' buffer is halved twice, one quarter share to each of its four readers; every
  other buffer goes whole to its one window. Nothing else is routed through the region: its invariant is the core's
  scoped buffers that are no staging buffer (there are none), and every unscoped buffer no window stages is read back
  at the end as the region found it.
-/
import proofs.«182011_g32169305047750_cont_8to1_b_1656_6_alg».proof.Proof.WordHeadsData

set_option maxRecDepth 16384

noncomputable section

namespace Cert.Kernel.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.SL.BI (bigSepL bigSep_eq_bigSepL_of_eq)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare.left.left := rfl
theorem share_1 (c : Dev nD) : (dats m 0 c).share 1 = fullShare.left.right := rfl
theorem share_2 (c : Dev nD) : (dats m 0 c).share 2 = fullShare.right.left := rfl
theorem share_3 (c : Dev nD) : (dats m 0 c).share 3 = fullShare.right.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_arg1, main_arg3, main_v0, main_v1, main_v2_0, main_v2_1] (by decide) (by decide)]
  simp only [bigSepL]
  rw [share_0, share_1, share_2, share_3, share_4, share_5, share_6, share_7, share_8, share_9]
  simp only [View.set_whole]
  change iprop(_ ∗ _ ∗ _ ∗ _ ∗ _ ∗ _ ∗ _) ⊢ _
  iintro ⟨H0, H1, H3, Hv0, Hv1, Hs, Hd⟩
  ihave Hh := (pointsTo_share (PosShare.mem_left_op_right fullShare)).1 $$ H0
  icases Hh with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]; · iexact HLL
  isplitl [HLR]; · iexact HLR
  isplitl [HRL]; · iexact HRL
  isplitl [HRR]; · iexact HRR
  isplitl [H1]; · iexact H1
  isplitl [H3]; · iexact H3
  isplitl [Hv0]; · iexact Hv0
  isplitl [Hv1]; · iexact Hv1
  isplitl [Hs]; · iexact Hs
  iexact Hd

-- `θ_run_region_noSem_shared`'s implicit arguments are found by unifying its conclusion with this one
set_option backward.isDefEq.respectTransparency.types false in
/-- Every weakly fair execution of the program from a memory with zero counters terminates, and leaves every windowed
    array at what the write-backs made of it and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp)) (fun c => Pipeline.unscopedRest spec0 c (V m c))
    (fun c => by iintro H; isplitr; · iempintro
                 iexact H)
    (fun c => show iprop(emp ∗ Pipeline.scopedRest spec0 c) ⊢ (Pipeline.scopedRest (Ix := Unit) (Name := ℕ) (U := UR sig nD τ) (Lvl := ℕ) (Val := Elt F) spec0 c : sProp 𝕄) from by
      iintro ⟨-, H⟩; iexact H)
    (fun c => show (Pipeline.scopedRest (Ix := Unit) (Name := ℕ) (U := UR sig nD τ) (Lvl := ℕ) (Val := Elt F) spec0 c : sProp 𝕄) ⊢ iprop(emp ∗ Pipeline.scopedRest spec0 c) from by
      iintro H; isplitr; · iempintro
      iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h => h)

/-- In a final state of that kind the five arguments are as launched: the activations and the two weight matrices are
    arrays of input windows, never written; the two bias vectors are staged by no window and no reshape writes them. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 4).trans (((dats m 0 c).arrAt_in 4 rfl _).trans ((A_eq m c 4).trans (V_main_arg1 m c))),
    ((h c).2 main_arg2 (Pipeline.mem_restRefs_of main_arg2 (by decide) (by decide))).trans (V_main_arg2 m c),
    ((h c).1 5).trans (((dats m 0 c).arrAt_in 5 rfl _).trans ((A_eq m c 5).trans (V_main_arg3 m c))),
    ((h c).2 main_arg4 (Pipeline.mem_restRefs_of main_arg4 (by decide) (by decide))).trans (V_main_arg4 m c)⟩

/-- The program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Heads

end
-- ==== Proof.HeadsEntry.lean ====
/-
  The kernel's program up to its one pallas_call: the two bias vectors are reshaped to rows
  (82 ↦ 1×82, 324 ↦ 1×324) and nothing else happens before the region. Stated here: the contents every
  TensorCore buffer holds when the region is entered, that the five arguments are among the buffers the two
  reshapes do not write, and each window's block of its array at a grid point.
-/
import proofs.«182011_g32169305047750_cont_8to1_b_1656_6_alg».proof.Proof.Gen.KernelIdeal.Launch
import proofs.«182011_g32169305047750_cont_8to1_b_1656_6_alg».proof.Proof.Gen.KernelIdeal.Points
import Idealize.ShloMosaic.Lib.Pipeline.FrameBody

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered: the launch contents run through the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Heads

end
-- ==== Proof.HeadsBody.lean ====
/-
  One grid point of the two-head kernel. The body reads four column chunks of the point's 2000 activation rows
  (256 columns each), both weight matrices whole and both bias rows, and stores into the two output blocks
      scores = ((x₀·Wc₀ᵀ + x₁·Wc₁ᵀ) + x₂·Wc₂ᵀ) + x₃·Wc₃ᵀ + bc      (2000 × 82)
      deltas = ((x₀·Wb₀ᵀ + x₁·Wb₁ᵀ) + x₂·Wb₂ᵀ) + x₃·Wb₃ᵀ + bb      (2000 × 324)
  where W·ₖ is columns 256k … 256k+255 of the weight matrix. Each output block is written by ONE store over the
  whole block, so what the block holds afterwards is that store's value, a function of the eight input blocks alone.
-/
import proofs.«182011_g32169305047750_cont_8to1_b_1656_6_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangles the body loads and stores through. -/
abbrev rX : Rect S2000x256 := Rect.unit (s := S2000x256) ![0, 0] S2000x256.size inb_S2000x256_S2000x256_0_0
abbrev rWc : Rect S82x1024 := Rect.unit (s := S82x1024) ![0, 0] S82x1024.size inb_S82x1024_S82x1024_0_0
abbrev rWb : Rect S324x1024 := Rect.unit (s := S324x1024) ![0, 0] S324x1024.size inb_S324x1024_S324x1024_0_0
abbrev rBc : Rect S1x82 := Rect.unit (s := S1x82) ![0, 0] S1x82.size inb_S1x82_S1x82_0_0
abbrev rBb : Rect S1x324 := Rect.unit (s := S1x324) ![0, 0] S1x324.size inb_S1x324_S1x324_0_0
abbrev rS : Rect S2000x82 := Rect.unit (s := S2000x82) ![0, 0] S2000x82.size inb_S2000x82_S2000x82_0_0
abbrev rD : Rect S2000x324 := Rect.unit (s := S2000x324) ![0, 0] S2000x324.size inb_S2000x324_S2000x324_0_0

/-- The scores block after the body: the four partial products against the class weights, summed left to right,
    plus the class bias row on every row. -/
def scoresBlk (x0 x1 x2 x3 : Vec F S2000x256 .f32) (wc : Vec F S82x1024 .f32) (bc : Vec F S1x82 .f32) : Vec F S2000x82 .f32 :=
  View.canon [⟨rS, k0_pay1 (k0_pay7 (View.ld wc rWc) (View.ld x0 rX) (View.ld x1 rX) (View.ld x2 rX) (View.ld x3 rX)) (k0_pay9 (View.ld bc rBc))⟩]

/-- The deltas block after the body: the same with the box weights and the box bias row. -/
def deltasBlk (x0 x1 x2 x3 : Vec F S2000x256 .f32) (wb : Vec F S324x1024 .f32) (bb : Vec F S1x324 .f32) : Vec F S2000x324 .f32 :=
  View.canon [⟨rD, k0_pay2 (k0_pay8 (View.ld wb rWb) (View.ld x0 rX) (View.ld x1 rX) (View.ld x2 rX) (View.ld x3 rX)) (View.ld bb rBb)⟩]

/-- The one store of each output covers its block. -/
theorem coverS (p0 : Vec F S2000x82 .f32) (y : S2000x82.Idx) :
    ∃ pc ∈ ([⟨rS, p0⟩] : List (View.Piece (Elt F) S2000x82 .f32)), y ∈ pc.1.set :=
  View.cover_of_tiled [⟨rS, p0⟩] S2000x82.size (by rfl) y
theorem coverD (p0 : Vec F S2000x324 .f32) (y : S2000x324.Idx) :
    ∃ pc ∈ ([⟨rD, p0⟩] : List (View.Piece (Elt F) S2000x324 .f32)), y ∈ pc.1.set :=
  View.cover_of_tiled [⟨rD, p0⟩] S2000x324.size (by rfl) y

set_option maxHeartbeats 1000000 in
/-- The body on whole staging buffers: the eight input buffers at their contents, the two output buffers at
    anything; it ends with the inputs as they were and the outputs at `scoresBlk` and `deltasBlk` of the inputs. -/
theorem sound_kernel (c : Dev nD) (E : Set ℕ) (i : grid0.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S82x1024 .f32) (harg5 : arg5.IsWhole) (arg6 : Memref sig .tc .vmem S324x1024 .f32) (harg6 : arg6.IsWhole) (arg7 : Memref sig .tc .vmem S1x82 .f32) (harg7 : arg7.IsWhole) (arg8 : Memref sig .tc .vmem S1x324 .f32) (harg8 : arg8.IsWhole) (arg9 : Memref sig .tc .vmem S2000x82 .f32) (harg9 : arg9.IsWhole) (arg10 : Memref sig .tc .vmem S2000x324 .f32) (harg10 : arg10.IsWhole)
    (x0 x1 x2 x3 : Vec F S2000x256 .f32) (wc : Vec F S82x1024 .f32) (wb : Vec F S324x1024 .f32) (bc : Vec F S1x82 .f32) (bb : Vec F S1x324 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare wc ∗ owns (c : Thread nD τ) arg6 fullShare wb ∗ owns (c : Thread nD τ) arg7 fullShare bc ∗ owns (c : Thread nD τ) arg8 fullShare bb
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare wc ∗ owns (c : Thread nD τ) arg6 fullShare wb ∗ owns (c : Thread nD τ) arg7 fullShare bc ∗ owns (c : Thread nD τ) arg8 fullShare bb
            ∗ owns (c : Thread nD τ) arg9 fullShare (scoresBlk x0 x1 x2 x3 wc bc) ∗ owns (c : Thread nD τ) arg10 fullShare (deltasBlk x0 x1 x2 x3 wb bb)) -∗ K ⟨⟩))
      ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10) K := by
  simp only [cc0__heads_kernel_eq_skeleton]; unfold cc0__heads_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverS _)
  iexists _; isplitr
  swap; · iexact H9
  ipureintro
  exact View.read_writes_eq_canon _ _ _ (coverD _)

end Cert.KernelIdeal.Heads

end
-- ==== Proof.HeadsData.lean ====
/-
  The proof data of the one pipeline. Four of its ten windows read the SAME array, the activations: window k
  (k < 4) takes the 2000 × 256 block at block index (i, k) at grid point i. So the activations' buffer is dealt
  among those four readers, a quarter of the full share each; every other array has one window and is held whole.
  After the body at point t each input's staging buffer still holds its block, and the two outputs' hold the
  scores and deltas blocks computed from the point's input blocks. The body keeps nothing between points.
-/
import proofs.«182011_g32169305047750_cont_8to1_b_1656_6_alg».proof.Proof.HeadsEntry
import proofs.«182011_g32169305047750_cont_8to1_b_1656_6_alg».proof.Proof.HeadsBody

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => scoresBlk (iblk m c 0 t) (iblk m c 1 t) (iblk m c 2 t) (iblk m c 3 t) (iblk m c 4 t) (iblk m c 6 t)
    | ⟨9, _⟩ => deltasBlk (iblk m c 0 t) (iblk m c 1 t) (iblk m c 2 t) (iblk m c 3 t) (iblk m c 5 t) (iblk m c 7 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = scoresBlk (iblk m c 0 t) (iblk m c 1 t) (iblk m c 2 t) (iblk m c 3 t) (iblk m c 4 t) (iblk m c 6 t) := by dsimp only [dats]
theorem after_9 (c : Dev nD) (t : Fin cfg0.N) : (dats m 0 c).after 9 t = deltasBlk (iblk m c 0 t) (iblk m c 1 t) (iblk m c 2 t) (iblk m c 3 t) (iblk m c 5 t) (iblk m c 7 t) := by dsimp only [dats]

/-- An input's current staging buffer holds its block at every point, whether the pipeline fetched it there or
    not: where it did not, the block index has not moved since the last fetch and the body left the block alone. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- What the body is handed at point `t`: the invariant, the core's dues, and every window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and the
    dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Heads

end
-- ==== Proof.HeadsRun.lean ====
/-
  The launch of the two-head kernel. Four of the pipeline's windows read one array, so the launch theorem used is the
  one for windows that share arrays: it asks how the buffers behind the arrays, each held whole, make the pipeline's
  holdings at entry. The activations' buffer is halved twice, one quarter share to each of its four readers; every
  other buffer goes whole to its one window. Nothing else is routed through the region: its invariant is the core's
  scoped buffers that are no staging buffer (there are none), and every unscoped buffer no window stages is read back
  at the end as the region found it.
-/
import proofs.«182011_g32169305047750_cont_8to1_b_1656_6_alg».proof.Proof.HeadsData

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.SL.BI (bigSepL bigSep_eq_bigSepL_of_eq)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare.left.left := rfl
theorem share_1 (c : Dev nD) : (dats m 0 c).share 1 = fullShare.left.right := rfl
theorem share_2 (c : Dev nD) : (dats m 0 c).share 2 = fullShare.right.left := rfl
theorem share_3 (c : Dev nD) : (dats m 0 c).share 3 = fullShare.right.right := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_arg1, main_arg3, main_v0, main_v1, main_v2_0, main_v2_1] (by decide) (by decide)]
  simp only [bigSepL]
  rw [share_0, share_1, share_2, share_3, share_4, share_5, share_6, share_7, share_8, share_9]
  simp only [View.set_whole]
  change iprop(_ ∗ _ ∗ _ ∗ _ ∗ _ ∗ _ ∗ _) ⊢ _
  iintro ⟨H0, H1, H3, Hv0, Hv1, Hs, Hd⟩
  ihave Hh := (pointsTo_share (PosShare.mem_left_op_right fullShare)).1 $$ H0
  icases Hh with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]; · iexact HLL
  isplitl [HLR]; · iexact HLR
  isplitl [HRL]; · iexact HRL
  isplitl [HRR]; · iexact HRR
  isplitl [H1]; · iexact H1
  isplitl [H3]; · iexact H3
  isplitl [Hv0]; · iexact Hv0
  isplitl [Hv1]; · iexact Hv1
  isplitl [Hs]; · iexact Hs
  iexact Hd

-- `θ_run_region_noSem_shared`'s implicit arguments are found by unifying its conclusion with this one
set_option backward.isDefEq.respectTransparency.types false in
/-- Every weakly fair execution of the program from a memory with zero counters terminates, and leaves every windowed
    array at what the write-backs made of it and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp)) (fun c => Pipeline.unscopedRest spec0 c (V m c))
    (fun c => by iintro H; isplitr; · iempintro
                 iexact H)
    (fun c => show iprop(emp ∗ Pipeline.scopedRest spec0 c) ⊢ (Pipeline.scopedRest (Ix := Unit) (Name := ℕ) (U := UR sig nD τ) (Lvl := ℕ) (Val := Elt F) spec0 c : sProp 𝕄) from by
      iintro ⟨-, H⟩; iexact H)
    (fun c => show (Pipeline.scopedRest (Ix := Unit) (Name := ℕ) (U := UR sig nD τ) (Lvl := ℕ) (Val := Elt F) spec0 c : sProp 𝕄) ⊢ iprop(emp ∗ Pipeline.scopedRest spec0 c) from by
      iintro H; isplitr; · iempintro
      iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h => h)

/-- In a final state of that kind the five arguments are as launched: the activations and the two weight matrices are
    arrays of input windows, never written; the two bias vectors are staged by no window and no reshape writes them. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 4).trans (((dats m 0 c).arrAt_in 4 rfl _).trans ((A_eq m c 4).trans (V_main_arg1 m c))),
    ((h c).2 main_arg2 (Pipeline.mem_restRefs_of main_arg2 (by decide) (by decide))).trans (V_main_arg2 m c),
    ((h c).1 5).trans (((dats m 0 c).arrAt_in 5 rfl _).trans ((A_eq m c 5).trans (V_main_arg3 m c))),
    ((h c).2 main_arg4 (Pipeline.mem_restRefs_of main_arg4 (by decide) (by decide))).trans (V_main_arg4 m c)⟩

/-- The program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Heads

end
-- ==== Proof.HeadsLaw.lean ====
/-
  The one law that joins the two programs: a sum of 1024 terms is the sum of its four consecutive quarters, taken left
  to right. It holds in any commutative monoid, so on the extended reals it needs no finiteness.
-/
import Mathlib.Algebra.BigOperators.Fin
import Mathlib.Algebra.BigOperators.Intervals

namespace Cert.KernelIdeal.Heads

open Finset

/-- Column `o + k` of a 1024-column matrix, for `k` inside a 256-column chunk that starts at `o`. -/
abbrev col (o : ℕ) (ho : o + 256 ≤ 1024) (k : Fin 256) : Fin 1024 := ⟨o + k.val, by have := k.isLt; omega⟩

theorem sum_quarters {M : Type*} [AddCommMonoid M] (g : Fin 1024 → M) :
    ∑ k, g k = ((∑ k : Fin 256, g (col 0 (by decide) k) + ∑ k : Fin 256, g (col 256 (by decide) k))
        + ∑ k : Fin 256, g (col 512 (by decide) k)) + ∑ k : Fin 256, g (col 768 (by decide) k) := by
  let f : ℕ → M := fun n => if h : n < 1024 then g ⟨n, h⟩ else 0
  have hf : ∀ (o : ℕ) (ho : o + 256 ≤ 1024) (k : Fin 256), g (col o ho k) = f (o + k.val) := fun o ho k => by
    have hk : o + k.val < 1024 := by have := k.isLt; omega
    show g ⟨o + k.val, _⟩ = if h : o + k.val < 1024 then g ⟨o + k.val, h⟩ else 0
    rw [dif_pos hk]
  have hg : ∀ k : Fin 1024, g k = f k.val := fun k => by
    show g k = if h : k.val < 1024 then g ⟨k.val, h⟩ else 0
    rw [dif_pos k.isLt]
  simp only [hf, hg]
  rw [Fin.sum_univ_eq_sum_range f 1024, Fin.sum_univ_eq_sum_range (fun n => f (0 + n)) 256,
    Fin.sum_univ_eq_sum_range (fun n => f (256 + n)) 256, Fin.sum_univ_eq_sum_range (fun n => f (512 + n)) 256,
    Fin.sum_univ_eq_sum_range (fun n => f (768 + n)) 256]
  rw [show (1024 : ℕ) = 256 + 256 + 256 + 256 from rfl, Finset.sum_range_add, Finset.sum_range_add, Finset.sum_range_add]
  simp only [Nat.zero_add, Nat.reduceAdd]

end Cert.KernelIdeal.Heads
-- ==== Proof.HeadsBlock.lean ====
/-
  The two output blocks of one grid point, read at a row `p` and a class `q`, on the extended reals.
  A change of float format is the identity there, a matrix product into a zero accumulator is the plain sum of products,
  and a slice of the weight matrix's columns reads the matrix at the shifted column. So the scores block at (p, q) is
      ((Σₖ x₀[p,k]·Wc[q,k] + Σₖ x₁[p,k]·Wc[q,256+k]) + Σₖ x₂[p,k]·Wc[q,512+k]) + Σₖ x₃[p,k]·Wc[q,768+k] + bc[0,q]
  (k < 256 in each sum), and the deltas block the same with the box weights and bias.
-/
import proofs.«182011_g32169305047750_cont_8to1_b_1656_6_alg».proof.Proof.HeadsBody
import proofs.«182011_g32169305047750_cont_8to1_b_1656_6_alg».proof.Proof.HeadsLaw
import Idealize.ShloMosaic.Lib.Pipeline.Value
import Idealize.ShloMosaic.Lib.ValueIdx
import Idealize.ShloMosaic.PureOps.Ideal.Laws

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The one whole-block store leaves its value: the scores block is the sum of the four partial products plus the bias. -/
theorem scoresBlk_eq (x0 x1 x2 x3 : Vec F S2000x256 .f32) (wc : Vec F S82x1024 .f32) (bc : Vec F S1x82 .f32) :
    scoresBlk x0 x1 x2 x3 wc bc = k0_pay1 (k0_pay7 wc x0 x1 x2 x3) (k0_pay9 bc) := by
  unfold scoresBlk
  rw [View.canon_unit_zero hz]
  simp only [View.ld_unit_zero (S := S2000x256) hz, View.ld_unit_zero (S := S82x1024) hz, View.ld_unit_zero (S := S1x82) hz]
theorem deltasBlk_eq (x0 x1 x2 x3 : Vec F S2000x256 .f32) (wb : Vec F S324x1024 .f32) (bb : Vec F S1x324 .f32) :
    deltasBlk x0 x1 x2 x3 wb bb = k0_pay2 (k0_pay8 wb x0 x1 x2 x3) bb := by
  unfold deltasBlk
  rw [View.canon_unit_zero hz]
  simp only [View.ld_unit_zero (S := S2000x256) hz, View.ld_unit_zero (S := S324x1024) hz, View.ld_unit_zero (S := S1x324) hz]

/-! ## The S head -/

theorem lhsS_0 (i : S2000x82.Idx) (q : dot_S2000x256_S82x256_S2000x82_1_1_0_0_n_n.contr.Idx) : (dot_S2000x256_S82x256_S2000x82_1_1_0_0_n_n.lhsIdx i q 0).val = (i 0).val := by
  unfold DotDims.lhsIdx
  rw [dif_neg (show ¬(0 : Fin S2000x256.rank) ∈ dot_S2000x256_S82x256_S2000x82_1_1_0_0_n_n.lhsBatch by decide), dif_pos (show (0 : Fin S2000x256.rank) ∈ dot_S2000x256_S82x256_S2000x82_1_1_0_0_n_n.lhsNonContracting by decide)]
  rfl
theorem lhsS_1 (i : S2000x82.Idx) (q : dot_S2000x256_S82x256_S2000x82_1_1_0_0_n_n.contr.Idx) : (dot_S2000x256_S82x256_S2000x82_1_1_0_0_n_n.lhsIdx i q 1).val = (q ⟨0, by decide⟩).val :=
  dot_S2000x256_S82x256_S2000x82_1_1_0_0_n_n.lhsIdx_val_of_single rfl i q
theorem rhsS_0 (i : S2000x82.Idx) (q : dot_S2000x256_S82x256_S2000x82_1_1_0_0_n_n.contr.Idx) : (dot_S2000x256_S82x256_S2000x82_1_1_0_0_n_n.rhsIdx i q 0).val = (i 1).val := by
  unfold DotDims.rhsIdx
  rw [dif_neg (show ¬(0 : Fin S82x256.rank) ∈ dot_S2000x256_S82x256_S2000x82_1_1_0_0_n_n.rhsBatch by decide), dif_pos (show (0 : Fin S82x256.rank) ∈ dot_S2000x256_S82x256_S2000x82_1_1_0_0_n_n.rhsNonContracting by decide)]
  rfl
theorem rhsS_1 (i : S2000x82.Idx) (q : dot_S2000x256_S82x256_S2000x82_1_1_0_0_n_n.contr.Idx) : (dot_S2000x256_S82x256_S2000x82_1_1_0_0_n_n.rhsIdx i q 1).val = (q ⟨0, by decide⟩).val :=
  dot_S2000x256_S82x256_S2000x82_1_1_0_0_n_n.rhsIdx_val_of_single rfl i q

/-- One partial product into a zero accumulator, at row `p` and class `q`: the dot product of row `p` of the left
    operand with row `q` of the right one (both operands are contracted along their second axis). -/
theorem mmS_apply (a : FVec Ideal S2000x256 .bf16) (b : FVec Ideal S82x256 .bf16) (p : Fin 2000) (q : Fin 82) :
    matmul dot_S2000x256_S82x256_S2000x82_1_1_0_0_n_n none a b (constant S2000x82 .f32 0x00000000#32) (ix2 p q) = ∑ k : Fin 256, a (ix2 p k) * b (ix2 q k) := by
  show FloatOps.matmul dot_S2000x256_S82x256_S2000x82_1_1_0_0_n_n none a b (constant S2000x82 .f32 0x00000000#32) (ix2 p q) = _
  rw [Ideal.matmul_constant_zero_apply, ← Equiv.sum_comp (contrEquiv1 dot_S2000x256_S82x256_S2000x82_1_1_0_0_n_n 256 rfl rfl).symm]
  refine Finset.sum_congr rfl fun k _ => ?_
  have hk := contrEquiv1_symm_val dot_S2000x256_S82x256_S2000x82_1_1_0_0_n_n 256 rfl rfl k
  have el : dot_S2000x256_S82x256_S2000x82_1_1_0_0_n_n.lhsIdx (ix2 p q) ((contrEquiv1 dot_S2000x256_S82x256_S2000x82_1_1_0_0_n_n 256 rfl rfl).symm k) = ix2 p k := funext fun a => Fin.ext (by
    match a with
    | ⟨0, _⟩ => exact lhsS_0 _ _
    | ⟨1, _⟩ => exact (lhsS_1 _ _).trans hk)
  have er : dot_S2000x256_S82x256_S2000x82_1_1_0_0_n_n.rhsIdx (ix2 p q) ((contrEquiv1 dot_S2000x256_S82x256_S2000x82_1_1_0_0_n_n 256 rfl rfl).symm k) = ix2 q k := funext fun a => Fin.ext (by
    match a with
    | ⟨0, _⟩ => exact rhsS_0 _ _
    | ⟨1, _⟩ => exact (rhsS_1 _ _).trans hk)
  rw [el, er]

/-- Columns `o … o + 255` of the weight matrix, read at row `q` and column `k` of the chunk. -/
theorem chunkS_apply (w : FVec Ideal S82x1024 .bf16) (o : ℕ) (ho : o + 256 ≤ 1024) (h : S82x1024.Slices ![0, o] S82x256) (q : Fin 82) (k : Fin 256) :
    extractStridedSlice S82x256 ![0, o] w h (ix2 q k) = w (ix2 q (col o ho k)) :=
  extractStridedSlice_apply _ _ h _ (ix2 q (col o ho k)) (fun a => match a with
    | ⟨0, _⟩ => by show q.val = 0 + q.val; omega
    | ⟨1, _⟩ => rfl)

/-- The four partial products summed left to right, at row `p` and class `q`: the chunked dot product of the
    activation row with the weight row. -/
theorem k0_pay7_apply (w : Vec Ideal S82x1024 .f32) (x0 x1 x2 x3 : Vec Ideal S2000x256 .f32) (p : Fin 2000) (q : Fin 82) :
    k0_pay7 (F := Ideal) w x0 x1 x2 x3 (ix2 p q)
      = ((∑ k : Fin 256, x0 (ix2 p k) * w (ix2 q (col 0 (by decide) k)) + ∑ k : Fin 256, x1 (ix2 p k) * w (ix2 q (col 256 (by decide) k)))
          + ∑ k : Fin 256, x2 (ix2 p k) * w (ix2 q (col 512 (by decide) k))) + ∑ k : Fin 256, x3 (ix2 p k) * w (ix2 q (col 768 (by decide) k)) := by
  refine Eq.trans (show _ =
      ((matmul dot_S2000x256_S82x256_S2000x82_1_1_0_0_n_n none (truncf .bf16 x0 bitsLt_bf16_f32) (extractStridedSlice S82x256 ![0, 0] (truncf .bf16 w bitsLt_bf16_f32) slices_S82x1024_o0_0_S82x256) (constant S2000x82 .f32 0x00000000#32) (ix2 p q)
        + matmul dot_S2000x256_S82x256_S2000x82_1_1_0_0_n_n none (truncf .bf16 x1 bitsLt_bf16_f32) (extractStridedSlice S82x256 ![0, 256] (truncf .bf16 w bitsLt_bf16_f32) slices_S82x1024_o0_256_S82x256) (constant S2000x82 .f32 0x00000000#32) (ix2 p q))
        + matmul dot_S2000x256_S82x256_S2000x82_1_1_0_0_n_n none (truncf .bf16 x2 bitsLt_bf16_f32) (extractStridedSlice S82x256 ![0, 512] (truncf .bf16 w bitsLt_bf16_f32) slices_S82x1024_o0_512_S82x256) (constant S2000x82 .f32 0x00000000#32) (ix2 p q))
        + matmul dot_S2000x256_S82x256_S2000x82_1_1_0_0_n_n none (truncf .bf16 x3 bitsLt_bf16_f32) (extractStridedSlice S82x256 ![0, 768] (truncf .bf16 w bitsLt_bf16_f32) slices_S82x1024_o0_768_S82x256) (constant S2000x82 .f32 0x00000000#32) (ix2 p q) from rfl) ?_
  rw [mmS_apply, mmS_apply, mmS_apply, mmS_apply]
  refine congrArg₂ (· + ·) (congrArg₂ (· + ·) (congrArg₂ (· + ·) ?_ ?_) ?_) ?_ <;>
    exact Finset.sum_congr rfl fun k _ => congrArg₂ (· * ·) rfl (chunkS_apply _ _ _ _ _ _)

/-! ## The D head -/

theorem lhsD_0 (i : S2000x324.Idx) (q : dot_S2000x256_S324x256_S2000x324_1_1_0_0_n_n.contr.Idx) : (dot_S2000x256_S324x256_S2000x324_1_1_0_0_n_n.lhsIdx i q 0).val = (i 0).val := by
  unfold DotDims.lhsIdx
  rw [dif_neg (show ¬(0 : Fin S2000x256.rank) ∈ dot_S2000x256_S324x256_S2000x324_1_1_0_0_n_n.lhsBatch by decide), dif_pos (show (0 : Fin S2000x256.rank) ∈ dot_S2000x256_S324x256_S2000x324_1_1_0_0_n_n.lhsNonContracting by decide)]
  rfl
theorem lhsD_1 (i : S2000x324.Idx) (q : dot_S2000x256_S324x256_S2000x324_1_1_0_0_n_n.contr.Idx) : (dot_S2000x256_S324x256_S2000x324_1_1_0_0_n_n.lhsIdx i q 1).val = (q ⟨0, by decide⟩).val :=
  dot_S2000x256_S324x256_S2000x324_1_1_0_0_n_n.lhsIdx_val_of_single rfl i q
theorem rhsD_0 (i : S2000x324.Idx) (q : dot_S2000x256_S324x256_S2000x324_1_1_0_0_n_n.contr.Idx) : (dot_S2000x256_S324x256_S2000x324_1_1_0_0_n_n.rhsIdx i q 0).val = (i 1).val := by
  unfold DotDims.rhsIdx
  rw [dif_neg (show ¬(0 : Fin S324x256.rank) ∈ dot_S2000x256_S324x256_S2000x324_1_1_0_0_n_n.rhsBatch by decide), dif_pos (show (0 : Fin S324x256.rank) ∈ dot_S2000x256_S324x256_S2000x324_1_1_0_0_n_n.rhsNonContracting by decide)]
  rfl
theorem rhsD_1 (i : S2000x324.Idx) (q : dot_S2000x256_S324x256_S2000x324_1_1_0_0_n_n.contr.Idx) : (dot_S2000x256_S324x256_S2000x324_1_1_0_0_n_n.rhsIdx i q 1).val = (q ⟨0, by decide⟩).val :=
  dot_S2000x256_S324x256_S2000x324_1_1_0_0_n_n.rhsIdx_val_of_single rfl i q

/-- One partial product into a zero accumulator, at row `p` and class `q`: the dot product of row `p` of the left
    operand with row `q` of the right one (both operands are contracted along their second axis). -/
theorem mmD_apply (a : FVec Ideal S2000x256 .bf16) (b : FVec Ideal S324x256 .bf16) (p : Fin 2000) (q : Fin 324) :
    matmul dot_S2000x256_S324x256_S2000x324_1_1_0_0_n_n none a b (constant S2000x324 .f32 0x00000000#32) (ix2 p q) = ∑ k : Fin 256, a (ix2 p k) * b (ix2 q k) := by
  show FloatOps.matmul dot_S2000x256_S324x256_S2000x324_1_1_0_0_n_n none a b (constant S2000x324 .f32 0x00000000#32) (ix2 p q) = _
  rw [Ideal.matmul_constant_zero_apply, ← Equiv.sum_comp (contrEquiv1 dot_S2000x256_S324x256_S2000x324_1_1_0_0_n_n 256 rfl rfl).symm]
  refine Finset.sum_congr rfl fun k _ => ?_
  have hk := contrEquiv1_symm_val dot_S2000x256_S324x256_S2000x324_1_1_0_0_n_n 256 rfl rfl k
  have el : dot_S2000x256_S324x256_S2000x324_1_1_0_0_n_n.lhsIdx (ix2 p q) ((contrEquiv1 dot_S2000x256_S324x256_S2000x324_1_1_0_0_n_n 256 rfl rfl).symm k) = ix2 p k := funext fun a => Fin.ext (by
    match a with
    | ⟨0, _⟩ => exact lhsD_0 _ _
    | ⟨1, _⟩ => exact (lhsD_1 _ _).trans hk)
  have er : dot_S2000x256_S324x256_S2000x324_1_1_0_0_n_n.rhsIdx (ix2 p q) ((contrEquiv1 dot_S2000x256_S324x256_S2000x324_1_1_0_0_n_n 256 rfl rfl).symm k) = ix2 q k := funext fun a => Fin.ext (by
    match a with
    | ⟨0, _⟩ => exact rhsD_0 _ _
    | ⟨1, _⟩ => exact (rhsD_1 _ _).trans hk)
  rw [el, er]

/-- Columns `o … o + 255` of the weight matrix, read at row `q` and column `k` of the chunk. -/
theorem chunkD_apply (w : FVec Ideal S324x1024 .bf16) (o : ℕ) (ho : o + 256 ≤ 1024) (h : S324x1024.Slices ![0, o] S324x256) (q : Fin 324) (k : Fin 256) :
    extractStridedSlice S324x256 ![0, o] w h (ix2 q k) = w (ix2 q (col o ho k)) :=
  extractStridedSlice_apply _ _ h _ (ix2 q (col o ho k)) (fun a => match a with
    | ⟨0, _⟩ => by show q.val = 0 + q.val; omega
    | ⟨1, _⟩ => rfl)

/-- The four partial products summed left to right, at row `p` and class `q`: the chunked dot product of the
    activation row with the weight row. -/
theorem k0_pay8_apply (w : Vec Ideal S324x1024 .f32) (x0 x1 x2 x3 : Vec Ideal S2000x256 .f32) (p : Fin 2000) (q : Fin 324) :
    k0_pay8 (F := Ideal) w x0 x1 x2 x3 (ix2 p q)
      = ((∑ k : Fin 256, x0 (ix2 p k) * w (ix2 q (col 0 (by decide) k)) + ∑ k : Fin 256, x1 (ix2 p k) * w (ix2 q (col 256 (by decide) k)))
          + ∑ k : Fin 256, x2 (ix2 p k) * w (ix2 q (col 512 (by decide) k))) + ∑ k : Fin 256, x3 (ix2 p k) * w (ix2 q (col 768 (by decide) k)) := by
  refine Eq.trans (show _ =
      ((matmul dot_S2000x256_S324x256_S2000x324_1_1_0_0_n_n none (truncf .bf16 x0 bitsLt_bf16_f32) (extractStridedSlice S324x256 ![0, 0] (truncf .bf16 w bitsLt_bf16_f32) slices_S324x1024_o0_0_S324x256) (constant S2000x324 .f32 0x00000000#32) (ix2 p q)
        + matmul dot_S2000x256_S324x256_S2000x324_1_1_0_0_n_n none (truncf .bf16 x1 bitsLt_bf16_f32) (extractStridedSlice S324x256 ![0, 256] (truncf .bf16 w bitsLt_bf16_f32) slices_S324x1024_o0_256_S324x256) (constant S2000x324 .f32 0x00000000#32) (ix2 p q))
        + matmul dot_S2000x256_S324x256_S2000x324_1_1_0_0_n_n none (truncf .bf16 x2 bitsLt_bf16_f32) (extractStridedSlice S324x256 ![0, 512] (truncf .bf16 w bitsLt_bf16_f32) slices_S324x1024_o0_512_S324x256) (constant S2000x324 .f32 0x00000000#32) (ix2 p q))
        + matmul dot_S2000x256_S324x256_S2000x324_1_1_0_0_n_n none (truncf .bf16 x3 bitsLt_bf16_f32) (extractStridedSlice S324x256 ![0, 768] (truncf .bf16 w bitsLt_bf16_f32) slices_S324x1024_o0_768_S324x256) (constant S2000x324 .f32 0x00000000#32) (ix2 p q) from rfl) ?_
  rw [mmD_apply, mmD_apply, mmD_apply, mmD_apply]
  refine congrArg₂ (· + ·) (congrArg₂ (· + ·) (congrArg₂ (· + ·) ?_ ?_) ?_) ?_ <;>
    exact Finset.sum_congr rfl fun k _ => congrArg₂ (· * ·) rfl (chunkD_apply _ _ _ _ _ _)

/-! ## The bias rows and the two blocks -/

/-- A bias row broadcast down the 2000 rows reads the row at the class. -/
theorem biasS_apply (bc : Vec Ideal S1x82 .f32) (p : Fin 2000) (q : Fin 82) :
    broadcastTo S2000x82 (shapeCast S1x82 bc shapeCasts_S1x82_S1x82) broadcasts_S1x82_S2000x82 (ix2 p q) = bc (ix2 (0 : Fin 1) q) := by
  rw [shapeCast_self]
  exact broadcastTo_apply bc broadcasts_S1x82_S2000x82 (ix2 p q) (ix2 (0 : Fin 1) q) (fun a => match a with
    | ⟨0, _⟩ => by show (0 : ℕ) = if (1 : ℕ) = 1 then 0 else _; rw [if_pos rfl]
    | ⟨1, _⟩ => by show q.val = if (82 : ℕ) = 1 then 0 else q.val; rw [if_neg (by decide)])
theorem biasD_apply (bb : Vec Ideal S1x324 .f32) (p : Fin 2000) (q : Fin 324) :
    broadcastTo S2000x324 (shapeCast S1x324 bb shapeCasts_S1x324_S1x324) broadcasts_S1x324_S2000x324 (ix2 p q) = bb (ix2 (0 : Fin 1) q) := by
  rw [shapeCast_self]
  exact broadcastTo_apply bb broadcasts_S1x324_S2000x324 (ix2 p q) (ix2 (0 : Fin 1) q) (fun a => match a with
    | ⟨0, _⟩ => by show (0 : ℕ) = if (1 : ℕ) = 1 then 0 else _; rw [if_pos rfl]
    | ⟨1, _⟩ => by show q.val = if (324 : ℕ) = 1 then 0 else q.val; rw [if_neg (by decide)])

/-- The scores block at row `p`, class `q`. -/
theorem scoresBlk_apply (x0 x1 x2 x3 : Vec Ideal S2000x256 .f32) (wc : Vec Ideal S82x1024 .f32) (bc : Vec Ideal S1x82 .f32) (p : Fin 2000) (q : Fin 82) :
    scoresBlk x0 x1 x2 x3 wc bc (ix2 p q)
      = (((∑ k : Fin 256, x0 (ix2 p k) * wc (ix2 q (col 0 (by decide) k)) + ∑ k : Fin 256, x1 (ix2 p k) * wc (ix2 q (col 256 (by decide) k)))
          + ∑ k : Fin 256, x2 (ix2 p k) * wc (ix2 q (col 512 (by decide) k))) + ∑ k : Fin 256, x3 (ix2 p k) * wc (ix2 q (col 768 (by decide) k)))
        + bc (ix2 (0 : Fin 1) q) := by
  rw [scoresBlk_eq]
  refine Eq.trans (show _ = k0_pay7 (F := Ideal) wc x0 x1 x2 x3 (ix2 p q)
      + broadcastTo S2000x82 (shapeCast S1x82 bc shapeCasts_S1x82_S1x82) broadcasts_S1x82_S2000x82 (ix2 p q) from rfl) ?_
  rw [k0_pay7_apply, biasS_apply]

/-- The deltas block at row `p`, coordinate `q`. -/
theorem deltasBlk_apply (x0 x1 x2 x3 : Vec Ideal S2000x256 .f32) (wb : Vec Ideal S324x1024 .f32) (bb : Vec Ideal S1x324 .f32) (p : Fin 2000) (q : Fin 324) :
    deltasBlk x0 x1 x2 x3 wb bb (ix2 p q)
      = (((∑ k : Fin 256, x0 (ix2 p k) * wb (ix2 q (col 0 (by decide) k)) + ∑ k : Fin 256, x1 (ix2 p k) * wb (ix2 q (col 256 (by decide) k)))
          + ∑ k : Fin 256, x2 (ix2 p k) * wb (ix2 q (col 512 (by decide) k))) + ∑ k : Fin 256, x3 (ix2 p k) * wb (ix2 q (col 768 (by decide) k)))
        + bb (ix2 (0 : Fin 1) q) := by
  rw [deltasBlk_eq]
  refine Eq.trans (show _ = k0_pay8 (F := Ideal) wb x0 x1 x2 x3 (ix2 p q)
      + broadcastTo S2000x324 (shapeCast S1x324 bb shapeCasts_S1x324_S1x324) broadcasts_S1x324_S2000x324 (ix2 p q) from rfl) ?_
  rw [k0_pay8_apply, biasD_apply]

end Cert.KernelIdeal.Heads

end
-- ==== Proof.HeadsArray.lean ====
/-
  From blocks to arrays. Grid point t handles activation rows 2000t … 2000t + 1999: window k (k < 4) brings columns
  256k … 256k + 255 of those rows, the weight and bias windows bring their whole arrays at every point, and the two output
  windows write rows 2000t … 2000t + 1999 of the scores and of the deltas. So what point t writes back is block t of ONE
  function of the whole arrays — the chunked head — and since the ten blocks tile the 20000 rows, each output array ends
  holding that function everywhere.
-/
import proofs.«182011_g32169305047750_cont_8to1_b_1656_6_alg».proof.Proof.HeadsData
import proofs.«182011_g32169305047750_cont_8to1_b_1656_6_alg».proof.Proof.HeadsBlock
import Idealize.ShloMosaic.Lib.StableHlo.Run

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-- The block indices of every window at every grid point, decided over the grid: the activations' windows are at
    (t, k), the outputs' at (t, 0), the weights' and biases' at (0, 0). -/
theorem idx_all : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = t.val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `p` of grid point `t`'s block is row `2000 t + p` of the array. -/
abbrev row (t : Fin cfg0.N) (p : Fin 2000) : Fin 20000 :=
  ⟨2000 * t.val + p.val, by have := lt_of_lt_of_eq t.isLt N_0; have := p.isLt; omega⟩

/-! ## The input blocks, read off the arrays -/

theorem xblk0 (c : Dev nD) (t : Fin cfg0.N) (p : Fin 2000) (k : Fin 256) :
    iblk m c 0 t (ix2 p k) = V m c main_arg0 (ix2 (row t p) (col 0 (by decide) k)) := by
  show V m c main_arg0 (((cfg0.win 0).blk t).view.emb (ix2 p k)) = _
  refine congrArg (V m c main_arg0) (funext fun a => Fin.ext ?_)
  have e := idx_all t
  match a with
  | ⟨0, _⟩ => show win0_0.index t (0 : Fin 2) * 2000 + 1 * p.val = 2000 * t.val + p.val; omega
  | ⟨1, _⟩ => show win0_0.index t (1 : Fin 2) * 256 + 1 * k.val = 0 + k.val; omega
theorem xblk1 (c : Dev nD) (t : Fin cfg0.N) (p : Fin 2000) (k : Fin 256) :
    iblk m c 1 t (ix2 p k) = V m c main_arg0 (ix2 (row t p) (col 256 (by decide) k)) := by
  show V m c main_arg0 (((cfg0.win 1).blk t).view.emb (ix2 p k)) = _
  refine congrArg (V m c main_arg0) (funext fun a => Fin.ext ?_)
  have e := idx_all t
  match a with
  | ⟨0, _⟩ => show win0_1.index t (0 : Fin 2) * 2000 + 1 * p.val = 2000 * t.val + p.val; omega
  | ⟨1, _⟩ => show win0_1.index t (1 : Fin 2) * 256 + 1 * k.val = 256 + k.val; omega
theorem xblk2 (c : Dev nD) (t : Fin cfg0.N) (p : Fin 2000) (k : Fin 256) :
    iblk m c 2 t (ix2 p k) = V m c main_arg0 (ix2 (row t p) (col 512 (by decide) k)) := by
  show V m c main_arg0 (((cfg0.win 2).blk t).view.emb (ix2 p k)) = _
  refine congrArg (V m c main_arg0) (funext fun a => Fin.ext ?_)
  have e := idx_all t
  match a with
  | ⟨0, _⟩ => show win0_2.index t (0 : Fin 2) * 2000 + 1 * p.val = 2000 * t.val + p.val; omega
  | ⟨1, _⟩ => show win0_2.index t (1 : Fin 2) * 256 + 1 * k.val = 512 + k.val; omega
theorem xblk3 (c : Dev nD) (t : Fin cfg0.N) (p : Fin 2000) (k : Fin 256) :
    iblk m c 3 t (ix2 p k) = V m c main_arg0 (ix2 (row t p) (col 768 (by decide) k)) := by
  show V m c main_arg0 (((cfg0.win 3).blk t).view.emb (ix2 p k)) = _
  refine congrArg (V m c main_arg0) (funext fun a => Fin.ext ?_)
  have e := idx_all t
  match a with
  | ⟨0, _⟩ => show win0_3.index t (0 : Fin 2) * 2000 + 1 * p.val = 2000 * t.val + p.val; omega
  | ⟨1, _⟩ => show win0_3.index t (1 : Fin 2) * 256 + 1 * k.val = 768 + k.val; omega
theorem wblk8 (c : Dev nD) (t : Fin cfg0.N) (a : Fin 82) (b : Fin 1024) :
    iblk m c 4 t (ix2 a b) = V m c main_arg1 (ix2 a b) := by
  show V m c main_arg1 (((cfg0.win 4).blk t).view.emb (ix2 a b)) = _
  refine congrArg (V m c main_arg1) (funext fun d => Fin.ext ?_)
  have e := idx_all t
  match d with
  | ⟨0, _⟩ => show win0_4.index t (0 : Fin 2) * 82 + 1 * a.val = a.val; omega
  | ⟨1, _⟩ => show win0_4.index t (1 : Fin 2) * 1024 + 1 * b.val = b.val; omega
theorem wblk9 (c : Dev nD) (t : Fin cfg0.N) (a : Fin 324) (b : Fin 1024) :
    iblk m c 5 t (ix2 a b) = V m c main_arg3 (ix2 a b) := by
  show V m c main_arg3 (((cfg0.win 5).blk t).view.emb (ix2 a b)) = _
  refine congrArg (V m c main_arg3) (funext fun d => Fin.ext ?_)
  have e := idx_all t
  match d with
  | ⟨0, _⟩ => show win0_5.index t (0 : Fin 2) * 324 + 1 * a.val = a.val; omega
  | ⟨1, _⟩ => show win0_5.index t (1 : Fin 2) * 1024 + 1 * b.val = b.val; omega
theorem bblk8 (c : Dev nD) (t : Fin cfg0.N) (a : Fin 1) (b : Fin 82) :
    iblk m c 6 t (ix2 a b) = V m c main_v0 (ix2 a b) := by
  show V m c main_v0 (((cfg0.win 6).blk t).view.emb (ix2 a b)) = _
  refine congrArg (V m c main_v0) (funext fun d => Fin.ext ?_)
  have e := idx_all t
  match d with
  | ⟨0, _⟩ => show win0_6.index t (0 : Fin 2) * 1 + 1 * a.val = a.val; omega
  | ⟨1, _⟩ => show win0_6.index t (1 : Fin 2) * 82 + 1 * b.val = b.val; omega
theorem bblk9 (c : Dev nD) (t : Fin cfg0.N) (a : Fin 1) (b : Fin 324) :
    iblk m c 7 t (ix2 a b) = V m c main_v1 (ix2 a b) := by
  show V m c main_v1 (((cfg0.win 7).blk t).view.emb (ix2 a b)) = _
  refine congrArg (V m c main_v1) (funext fun d => Fin.ext ?_)
  have e := idx_all t
  match d with
  | ⟨0, _⟩ => show win0_7.index t (0 : Fin 2) * 1 + 1 * a.val = a.val; omega
  | ⟨1, _⟩ => show win0_7.index t (1 : Fin 2) * 324 + 1 * b.val = b.val; omega

/-! ## The scores array -/

/-- The chunked head at a row and a class: four dot products of 256 terms, summed left to right, plus the bias. -/
def scoresAt (x : FVec Ideal S20000x1024 .f32) (w : FVec Ideal S82x1024 .f32) (b : FVec Ideal S1x82 .f32) (r : Fin 20000) (q : Fin 82) : EReal :=
  (((∑ k : Fin 256, x (ix2 r (col 0 (by decide) k)) * w (ix2 q (col 0 (by decide) k))
      + ∑ k : Fin 256, x (ix2 r (col 256 (by decide) k)) * w (ix2 q (col 256 (by decide) k)))
      + ∑ k : Fin 256, x (ix2 r (col 512 (by decide) k)) * w (ix2 q (col 512 (by decide) k)))
      + ∑ k : Fin 256, x (ix2 r (col 768 (by decide) k)) * w (ix2 q (col 768 (by decide) k)))
    + b (ix2 (0 : Fin 1) q)

/-- The whole scores array as one function of the activations, the weights and the bias row. -/
def scoresOf (x : FVec Ideal S20000x1024 .f32) (w : FVec Ideal S82x1024 .f32) (b : FVec Ideal S1x82 .f32) : FVec Ideal S20000x82 .f32 :=
  fun i => scoresAt x w b ⟨(i 0).val, idx2_lt0 i⟩ ⟨(i 1).val, idx2_lt1 i⟩

/-- A whole-array function read through point `t`'s output block. -/
theorem read8 (G : FVec Ideal S20000x82 .f32) (t : Fin cfg0.N) (p : Fin 2000) (q : Fin 82) :
    ((cfg0.win 8).blk t).view.read (Elt Ideal) G (ix2 p q) = G (ix2 (row t p) q) := by
  show G (((cfg0.win 8).blk t).view.emb (ix2 p q)) = _
  refine congrArg G (funext fun a => Fin.ext ?_)
  have e := idx_all t
  match a with
  | ⟨0, _⟩ => show win0_8.index t (0 : Fin 2) * 2000 + 1 * p.val = 2000 * t.val + p.val; omega
  | ⟨1, _⟩ => show win0_8.index t (1 : Fin 2) * 82 + 1 * q.val = q.val; omega

/-- What point `t` writes back is block `t` of the chunked head of the arrays as the region finds them. -/
theorem flushed8_eq (c : Dev nD) (t : Fin cfg0.N) :
    (dats m 0 c).flushed 8 t = ((cfg0.win 8).blk t).view.read (Elt Ideal) (scoresOf (V m c main_arg0) (V m c main_arg1) (V m c main_v0)) := by
  show (cfg0.win 8).cut (grid0.coords t) ((dats m 0 c).after 8 t) = _
  rw [after_8]
  funext j
  obtain ⟨p, q, rfl⟩ : ∃ (p : Fin 2000) (q : Fin 82), j = ix2 p q := ⟨j 0, j 1, eq_ix2 j⟩
  refine (scoresBlk_apply _ _ _ _ _ _ p q).trans ?_
  rw [read8]
  show _ = scoresAt _ _ _ (row t p) q
  unfold scoresAt
  simp only [xblk0 m c t, xblk1 m c t, xblk2 m c t, xblk3 m c t, wblk8 m c t, bblk8 m c t]

/-- An index of the array lies in point `t`'s block iff each coordinate lies in the block's range. -/
theorem mem_blk8 (t : Fin cfg0.N) (i : S20000x82.Idx) :
    i ∈ ((cfg0.win 8).blk t).view.set ↔ ∀ a : Fin 2, win0_8.index t a * S2000x82.size a ≤ (i a).val ∧ (i a).val < win0_8.index t a * S2000x82.size a + S2000x82.size a := by
  show i ∈ ((View.whole main_v2_0).slice (win0_8.rect t)).set ↔ _
  rw [View.set_slice_whole, Rect.mem_set_unit]
  exact Iff.rfl

/-- Row `r` is written back by point `r / 2000`: the ten blocks tile the array. -/
theorem tiles8 (i : S20000x82.Idx) : ∃ t : Fin cfg0.N, (cfg0.win 8).flush t = true ∧ i ∈ ((cfg0.win 8).blk t).view.set := by
  have hi0 : (i 0).val < 20000 := idx2_lt0 i
  have hi1 : (i 1).val < 82 := idx2_lt1 i
  have hN : cfg0.N = 10 := N_0
  refine ⟨⟨(i 0).val / 2000, by rw [hN]; omega⟩, flush0_8 _, ?_⟩
  rw [mem_blk8]
  have e := idx_all ⟨(i 0).val / 2000, by rw [hN]; omega⟩
  intro a
  match a with
  | ⟨0, _⟩ => show win0_8.index _ (0 : Fin 2) * 2000 ≤ (i 0).val ∧ (i 0).val < win0_8.index _ (0 : Fin 2) * 2000 + 2000; simp only [] at e; omega
  | ⟨1, _⟩ => show win0_8.index _ (1 : Fin 2) * 82 ≤ (i 1).val ∧ (i 1).val < win0_8.index _ (1 : Fin 2) * 82 + 82; omega

/-- The scores array after the run. -/
theorem final8 (c : Dev nD) : (dats m 0 c).arrAt 8 cfg0.N = scoresOf (V m c main_arg0) (V m c main_arg1) (V m c main_v0) :=
  (dats m 0 c).arrAt_eq_of_cover 8 _ (fun t _ => flushed8_eq m c t) tiles8

/-! ## The deltas array -/

/-- The chunked head at a row and a class: four dot products of 256 terms, summed left to right, plus the bias. -/
def deltasAt (x : FVec Ideal S20000x1024 .f32) (w : FVec Ideal S324x1024 .f32) (b : FVec Ideal S1x324 .f32) (r : Fin 20000) (q : Fin 324) : EReal :=
  (((∑ k : Fin 256, x (ix2 r (col 0 (by decide) k)) * w (ix2 q (col 0 (by decide) k))
      + ∑ k : Fin 256, x (ix2 r (col 256 (by decide) k)) * w (ix2 q (col 256 (by decide) k)))
      + ∑ k : Fin 256, x (ix2 r (col 512 (by decide) k)) * w (ix2 q (col 512 (by decide) k)))
      + ∑ k : Fin 256, x (ix2 r (col 768 (by decide) k)) * w (ix2 q (col 768 (by decide) k)))
    + b (ix2 (0 : Fin 1) q)

/-- The whole deltas array as one function of the activations, the weights and the bias row. -/
def deltasOf (x : FVec Ideal S20000x1024 .f32) (w : FVec Ideal S324x1024 .f32) (b : FVec Ideal S1x324 .f32) : FVec Ideal S20000x324 .f32 :=
  fun i => deltasAt x w b ⟨(i 0).val, idx2_lt0 i⟩ ⟨(i 1).val, idx2_lt1 i⟩

/-- A whole-array function read through point `t`'s output block. -/
theorem read9 (G : FVec Ideal S20000x324 .f32) (t : Fin cfg0.N) (p : Fin 2000) (q : Fin 324) :
    ((cfg0.win 9).blk t).view.read (Elt Ideal) G (ix2 p q) = G (ix2 (row t p) q) := by
  show G (((cfg0.win 9).blk t).view.emb (ix2 p q)) = _
  refine congrArg G (funext fun a => Fin.ext ?_)
  have e := idx_all t
  match a with
  | ⟨0, _⟩ => show win0_9.index t (0 : Fin 2) * 2000 + 1 * p.val = 2000 * t.val + p.val; omega
  | ⟨1, _⟩ => show win0_9.index t (1 : Fin 2) * 324 + 1 * q.val = q.val; omega

/-- What point `t` writes back is block `t` of the chunked head of the arrays as the region finds them. -/
theorem flushed9_eq (c : Dev nD) (t : Fin cfg0.N) :
    (dats m 0 c).flushed 9 t = ((cfg0.win 9).blk t).view.read (Elt Ideal) (deltasOf (V m c main_arg0) (V m c main_arg3) (V m c main_v1)) := by
  show (cfg0.win 9).cut (grid0.coords t) ((dats m 0 c).after 9 t) = _
  rw [after_9]
  funext j
  obtain ⟨p, q, rfl⟩ : ∃ (p : Fin 2000) (q : Fin 324), j = ix2 p q := ⟨j 0, j 1, eq_ix2 j⟩
  refine (deltasBlk_apply _ _ _ _ _ _ p q).trans ?_
  rw [read9]
  show _ = deltasAt _ _ _ (row t p) q
  unfold deltasAt
  simp only [xblk0 m c t, xblk1 m c t, xblk2 m c t, xblk3 m c t, wblk9 m c t, bblk9 m c t]

/-- An index of the array lies in point `t`'s block iff each coordinate lies in the block's range. -/
theorem mem_blk9 (t : Fin cfg0.N) (i : S20000x324.Idx) :
    i ∈ ((cfg0.win 9).blk t).view.set ↔ ∀ a : Fin 2, win0_9.index t a * S2000x324.size a ≤ (i a).val ∧ (i a).val < win0_9.index t a * S2000x324.size a + S2000x324.size a := by
  show i ∈ ((View.whole main_v2_1).slice (win0_9.rect t)).set ↔ _
  rw [View.set_slice_whole, Rect.mem_set_unit]
  exact Iff.rfl

/-- Row `r` is written back by point `r / 2000`: the ten blocks tile the array. -/
theorem tiles9 (i : S20000x324.Idx) : ∃ t : Fin cfg0.N, (cfg0.win 9).flush t = true ∧ i ∈ ((cfg0.win 9).blk t).view.set := by
  have hi0 : (i 0).val < 20000 := idx2_lt0 i
  have hi1 : (i 1).val < 324 := idx2_lt1 i
  have hN : cfg0.N = 10 := N_0
  refine ⟨⟨(i 0).val / 2000, by rw [hN]; omega⟩, flush0_9 _, ?_⟩
  rw [mem_blk9]
  have e := idx_all ⟨(i 0).val / 2000, by rw [hN]; omega⟩
  intro a
  match a with
  | ⟨0, _⟩ => show win0_9.index _ (0 : Fin 2) * 2000 ≤ (i 0).val ∧ (i 0).val < win0_9.index _ (0 : Fin 2) * 2000 + 2000; simp only [] at e; omega
  | ⟨1, _⟩ => show win0_9.index _ (1 : Fin 2) * 324 ≤ (i 1).val ∧ (i 1).val < win0_9.index _ (1 : Fin 2) * 324 + 324; omega

/-- The deltas array after the run. -/
theorem final9 (c : Dev nD) : (dats m 0 c).arrAt 9 cfg0.N = deltasOf (V m c main_arg0) (V m c main_arg3) (V m c main_v1) :=
  (dats m 0 c).arrAt_eq_of_cover 9 _ (fun t _ => flushed9_eq m c t) tiles9

end Cert.KernelIdeal.Heads

end
-- ==== Proof.HeadsClaim.lean ====
/-
  The idealized kernel's run with its two results named. The bias row the region finds is the reshape of the bias
  vector, so it reads the vector at the class; each output array ends holding the chunked head of the ARGUMENT arrays.
-/
import proofs.«182011_g32169305047750_cont_8to1_b_1656_6_alg».proof.Proof.HeadsRun
import proofs.«182011_g32169305047750_cont_8to1_b_1656_6_alg».proof.Proof.HeadsArray

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The class bias row the region finds is the class bias vector laid out as one row. -/
theorem V_main_v0 (c : Dev nD) (q : Fin 82) : V m c main_v0 (ix2 (0 : Fin 1) q) = m ((c : Thread nD τ).loc main_arg2) (ix1 q) := by
  have e : (V m c main_v0 : S1x82.Idx → EReal) = shapeCast S1x82 (m ((c : Thread nD τ).loc main_arg2)) shapeCasts_S82_S1x82 := by
    dsimp only [V, hostOps0]; after_results; rfl
  rw [e]
  exact shapeCast_apply _ _ _ _ (by
    show (S82.rowMajor (ix1 q)).val = (S1x82.rowMajor (ix2 (0 : Fin 1) q)).val
    rw [Shape.rowMajor_val_one, Shape.rowMajor_val_two]; show q.val = 0 * 82 + q.val; omega)

/-- The box bias row likewise. -/
theorem V_main_v1 (c : Dev nD) (q : Fin 324) : V m c main_v1 (ix2 (0 : Fin 1) q) = m ((c : Thread nD τ).loc main_arg4) (ix1 q) := by
  have e : (V m c main_v1 : S1x324.Idx → EReal) = shapeCast S1x324 (m ((c : Thread nD τ).loc main_arg4)) shapeCasts_S324_S1x324 := by
    dsimp only [V, hostOps0]; after_results; rfl
  rw [e]
  exact shapeCast_apply _ _ _ _ (by
    show (S324.rowMajor (ix1 q)).val = (S1x324.rowMajor (ix2 (0 : Fin 1) q)).val
    rw [Shape.rowMajor_val_one, Shape.rowMajor_val_two]; show q.val = 0 * 324 + q.val; omega)

/-- Every weakly fair execution of the idealized kernel's program ends with the scores and the deltas at the chunked
    heads of the argument arrays (the bias rows as the region found them) and the arguments unchanged. -/
theorem run_values : θ_run defs (onTc (τ := τ) (main (F := Ideal))) ⟨m, fun _ => 0, ρ⟩ (fun r => ∀ c : Dev nD,
      r.2.mem ((c.tc : Thread nD τ).loc main_v2_0)
          = scoresOf (m ((c.tc : Thread nD τ).loc main_arg0)) (m ((c.tc : Thread nD τ).loc main_arg1)) (V m c main_v0)
      ∧ r.2.mem ((c.tc : Thread nD τ).loc main_v2_1)
          = deltasOf (m ((c.tc : Thread nD τ).loc main_arg0)) (m ((c.tc : Thread nD τ).loc main_arg3)) (V m c main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 8).trans ((final8 m c).trans (by rw [V_main_arg0, V_main_arg1])),
      ((h c).1 9).trans ((final9 m c).trans (by rw [V_main_arg0, V_main_arg3])),
      args_kept m r h c⟩)
    (run_main m ρ)

end Cert.KernelIdeal.Heads

end
-- ==== Proof.HeadsRef.lean ====
/-
  The reference, read index by index, against the chunked head. jnp's `x @ W.T + b` is, at row r and class q,
      Σₖ x[r,k]·W[q,k] + b[q]        (k < 1024)
  and the kernel's value there is the same sum taken as four quarters left to right, plus the same bias. Addition of
  extended reals is associative and commutative, so the two agree for every input.
-/
import proofs.«182011_g32169305047750_cont_8to1_b_1656_6_alg».proof.Proof.Gen.ReferenceIdeal.Read
import proofs.«182011_g32169305047750_cont_8to1_b_1656_6_alg».proof.Proof.HeadsArray

noncomputable section

namespace Cert.ReferenceIdeal.Linear

open Cert.ReferenceIdeal Cert.ReferenceIdeal.Read Idealize.ShloMosaic Idealize.ShloMosaic.ValueIdx
open Cert.KernelIdeal.Heads (col)

/-- The reference's scores, `x · Wᵀ + b`, is the chunked head: its one dot product of 1024 terms per entry splits into
    the four quarters the kernel sums, and its bias is the kernel's bias row read at the class. -/
theorem ref_scores (x : FVec Ideal S20000x1024 .f32) (w : FVec Ideal S82x1024 .f32) (b : FVec Ideal S82 .f32) (brow : FVec Ideal S1x82 .f32)
    (hb : ∀ q : Fin 82, brow (ix2 (0 : Fin 1) q) = b (ix1 q)) :
    val_main_v4 (F := Ideal) x w b = Cert.KernelIdeal.Heads.scoresOf x w brow := by
  funext i
  have el : ∀ k : Fin 1024, lidx_main_v1 i k = ix2 (⟨(i 0).val, idx2_lt0 i⟩ : Fin 20000) k := fun k =>
    funext fun a => match a with | ⟨0, _⟩ => rfl | ⟨1, _⟩ => rfl
  have er : ∀ k : Fin 1024, idx_main_v0 (ridx_main_v1 i k) = ix2 (⟨(i 1).val, idx2_lt1 i⟩ : Fin 82) k := fun k =>
    funext fun a => match a with | ⟨0, _⟩ => rfl | ⟨1, _⟩ => rfl
  have eb : idx_main_v2 (idx_main_v3 i) = ix1 (⟨(i 1).val, idx2_lt1 i⟩ : Fin 82) :=
    funext fun a => match a with | ⟨0, _⟩ => rfl
  rw [val_main_v4_apply, val_main_v1_apply, val_main_v3_apply, val_main_v2_apply]
  simp only [val_main_v0_apply, el, er, eb]
  show (∑ k : Fin 1024, x (ix2 _ k) * w (ix2 _ k)) + b (ix1 _) = Cert.KernelIdeal.Heads.scoresAt x w brow _ _
  rw [Cert.KernelIdeal.Heads.sum_quarters (fun k => x (ix2 _ k) * w (ix2 _ k))]
  unfold Cert.KernelIdeal.Heads.scoresAt
  rw [hb]

/-- The reference's deltas, `x · Wᵀ + b`, is the chunked head: its one dot product of 1024 terms per entry splits into
    the four quarters the kernel sums, and its bias is the kernel's bias row read at the class. -/
theorem ref_deltas (x : FVec Ideal S20000x1024 .f32) (w : FVec Ideal S324x1024 .f32) (b : FVec Ideal S324 .f32) (brow : FVec Ideal S1x324 .f32)
    (hb : ∀ q : Fin 324, brow (ix2 (0 : Fin 1) q) = b (ix1 q)) :
    val_main_v9 (F := Ideal) x w b = Cert.KernelIdeal.Heads.deltasOf x w brow := by
  funext i
  have el : ∀ k : Fin 1024, lidx_main_v6 i k = ix2 (⟨(i 0).val, idx2_lt0 i⟩ : Fin 20000) k := fun k =>
    funext fun a => match a with | ⟨0, _⟩ => rfl | ⟨1, _⟩ => rfl
  have er : ∀ k : Fin 1024, idx_main_v5 (ridx_main_v6 i k) = ix2 (⟨(i 1).val, idx2_lt1 i⟩ : Fin 324) k := fun k =>
    funext fun a => match a with | ⟨0, _⟩ => rfl | ⟨1, _⟩ => rfl
  have eb : idx_main_v7 (idx_main_v8 i) = ix1 (⟨(i 1).val, idx2_lt1 i⟩ : Fin 324) :=
    funext fun a => match a with | ⟨0, _⟩ => rfl
  rw [val_main_v9_apply, val_main_v6_apply, val_main_v8_apply, val_main_v7_apply]
  simp only [val_main_v5_apply, el, er, eb]
  show (∑ k : Fin 1024, x (ix2 _ k) * w (ix2 _ k)) + b (ix1 _) = Cert.KernelIdeal.Heads.deltasAt x w brow _ _
  rw [Cert.KernelIdeal.Heads.sum_quarters (fun k => x (ix2 _ k) * w (ix2 _ k))]
  unfold Cert.KernelIdeal.Heads.deltasAt
  rw [hb]

end Cert.ReferenceIdeal.Linear

end
-- ==== Proof.lean ====
/-
  Two linear heads over 20000 proposals, `scores = x·W_clsᵀ + b_cls` and `deltas = x·W_bboxᵀ + b_bbox`, computed by one
  Pallas kernel on a grid of ten row blocks against the plain jnp reference.

  The kernel is handed the activations FOUR times, once per 256-column chunk, so four of its windows read one array; it
  forms the four partial products per head (bf16 operands, f32 accumulation), sums them left to right and adds the bias.
  On the extended reals a change of float format is the identity and a matrix product is the exact sum of products, so at
  row r and class q the kernel computes
      ((Σ_{k<256} x[r,k]·W[q,k] + Σ_{k<256} x[r,256+k]·W[q,256+k]) + Σ_{k<256} x[r,512+k]·W[q,512+k]) + Σ_{k<256} x[r,768+k]·W[q,768+k] + b[q]
  and the reference Σ_{k<1024} x[r,k]·W[q,k] + b[q]. The two are equal because a finite sum in a commutative monoid splits
  into consecutive pieces; nothing needs the inputs to be finite, and the precondition is never opened.

  The frames: each kernel program runs its pipeline to the end with the activations' buffer dealt in quarter shares among
  its four reading windows, and leaves its arguments unchanged; the reference is a straight line of host operations.
  The idealization pass rewrote nothing, so `preserves` has nothing to state.
-/
import proofs.«182011_g32169305047750_cont_8to1_b_1656_6_alg».proof.Defs
import proofs.«182011_g32169305047750_cont_8to1_b_1656_6_alg».proof.Proof.Gen.Kernel
import proofs.«182011_g32169305047750_cont_8to1_b_1656_6_alg».proof.Proof.Gen.KernelIdeal
import proofs.«182011_g32169305047750_cont_8to1_b_1656_6_alg».proof.Proof.Gen.ReferenceIdeal
import proofs.«182011_g32169305047750_cont_8to1_b_1656_6_alg».proof.Proof.Gen.Pre_finite_inputs
import proofs.«182011_g32169305047750_cont_8to1_b_1656_6_alg».proof.Proof.Gen.ReferenceIdeal.Run
import proofs.«182011_g32169305047750_cont_8to1_b_1656_6_alg».proof.Proof.Gen.ReferenceIdeal.Read
import proofs.«182011_g32169305047750_cont_8to1_b_1656_6_alg».proof.Proof.WordHeadsRun
import proofs.«182011_g32169305047750_cont_8to1_b_1656_6_alg».proof.Proof.HeadsClaim
import proofs.«182011_g32169305047750_cont_8to1_b_1656_6_alg».proof.Proof.HeadsRef
import Idealize.ShloMosaic.Adequacy
import Idealize.ShloMosaic.Init

noncomputable section

namespace Cert.Proof

open Idealize.ShloMosaic Idealize.ShloMosaic.TcCoe Idealize.SL.Sem

theorem frame_word : Cert.frame_Kernel := fun m ρ _ => Cert.Kernel.Heads.frame m ρ

theorem frame_ideal : Cert.frame_KernelIdeal := fun m ρ _ => Cert.KernelIdeal.Heads.frame m ρ

/-- The reference's frame is its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- Both programs end with the scores and the deltas at the chunked heads of the kernel's argument arrays: the kernel by
    its run, the reference because its 1024-term dot products are the kernel's four quarters summed and its bias vector is
    what the kernel's bias row holds. -/
theorem algebraic : Cert.algebraic_KernelIdeal_ReferenceIdeal := by
  intro m ρ m' ρ' _ hagree
  refine ⟨_, _, Cert.KernelIdeal.Heads.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, Cert.ReferenceIdeal.Read.val_main_v4_eq]
    exact Cert.ReferenceIdeal.Linear.ref_scores _ _ _ _ (Cert.KernelIdeal.Heads.V_main_v0 m c)
  · rw [(hagree c).1, (hagree c).2.2.2.1, (hagree c).2.2.2.2, Cert.ReferenceIdeal.Read.val_main_v9_eq]
    exact Cert.ReferenceIdeal.Linear.ref_deltas _ _ _ _ (Cert.KernelIdeal.Heads.V_main_v1 m c)

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
